-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768 : Shape := ⟨2, ![64, 768]⟩
abbrev S768x768 : Shape := ⟨2, ![768, 768]⟩
abbrev S1x1 : Shape := ⟨2, ![1, 1]⟩
abbrev S1x768 : Shape := ⟨2, ![1, 768]⟩
abbrev S_ : Shape := ⟨0, ![]⟩

class Facts : Prop where
  bcast_S_S64x768 : S_.BroadcastsInDim S64x768 (![] : Fin 0 → Fin S64x768.rank)
  reducesTo_S64x768_S_d0_1 : S64x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S1x1 : S_.BroadcastsInDim S1x1 (![] : Fin 0 → Fin S1x1.rank)
  reducesTo_S1x1_S_d0_1 : S1x1.ReducesTo [0, 1] S_
  bcast_S_S1x768 : S_.BroadcastsInDim S1x768 (![] : Fin 0 → Fin S1x768.rank)
  reducesTo_S1x768_S_d0_1 : S1x768.ReducesTo [0, 1] S_

variable [Facts]

def fn_part1 {F : FTy → Type} [FloatOps F] (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  main_v18

def fn {F : FTy → Type} [FloatOps F] (main_arg0 : FVec F S64x768 .f32) (main_arg1 : FVec F S768x768 .f32) (main_arg2 : FVec F S1x1 .f32) (main_arg3 : FVec F S1x768 .f32) : IVec S_ 1 :=
  let main_v0 : FVec F S64x768 .f32 := Host.absf main_arg0
  let main_cst : FVec F S_ .f32 := constant S_ .f32 0x7F800000#32
  let main_v1 : FVec F S64x768 .f32 := broadcastInDim S64x768 ![] bcast_S_S64x768 main_cst
  let main_v2 : IVec S64x768 1 := cmpf .olt main_v0 main_v1
  let main_c : IVec S_ 1 := constantI S_ 1 1#1
  let main_v3 : IVec S_ 1 := (fun x v => Host.reduce IntOp.andi x v reducesTo_S64x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_v13 main_v16
-- ==== Kernel.lean ====
abbrev S64x768 : Shape := ⟨2, ![64, 768]⟩
abbrev S768x768 : Shape := ⟨2, ![768, 768]⟩
abbrev S1x1 : Shape := ⟨2, ![1, 1]⟩
abbrev S1x768 : Shape := ⟨2, ![1, 768]⟩
abbrev S64x1x768 : Shape := ⟨3, ![64, 1, 768]⟩
abbrev S64x768x768 : Shape := ⟨3, ![64, 768, 768]⟩
abbrev S1x1x768 : Shape := ⟨3, ![1, 1, 768]⟩
abbrev S1x768x768 : Shape := ⟨3, ![1, 768, 768]⟩
abbrev S768 : Shape := ⟨1, ![768]⟩
abbrev S768x1 : Shape := ⟨2, ![768, 1]⟩

abbrev nBuf : Space → Nat
  | .hbm => 7
  | .vmem => 9
  | .smem => 0
  | _ => 0

abbrev bufTy : (tb : Table) → Fin (tcTables nBuf tb) → BufTy
  | .hbm, ⟨0, _⟩ => ⟨S64x768, .f32⟩
  | .hbm, ⟨1, _⟩ => ⟨S768x768, .f32⟩
  | .hbm, ⟨2, _⟩ => ⟨S1x1, .f32⟩
  | .hbm, ⟨3, _⟩ => ⟨S1x768, .f32⟩
  | .hbm, ⟨4, _⟩ => ⟨S64x1x768, .f32⟩
  | .hbm, ⟨5, _⟩ => ⟨S64x768x768, .f32⟩
  | .hbm, ⟨6, _⟩ => ⟨S64x768, .f32⟩
  | .local _ .vmem, ⟨0, _⟩ => ⟨S64x768, .f32⟩
  | .local _ .vmem, ⟨1, _⟩ => ⟨S768x768, .f32⟩
  | .local _ .vmem, ⟨2, _⟩ => ⟨S1x1, .f32⟩
  | .local _ .vmem, ⟨3, _⟩ => ⟨S1x768, .f32⟩
  | .local _ .vmem, ⟨4, _⟩ => ⟨S1x1x768, .f32⟩
  | .local _ .vmem, ⟨5, _⟩ => ⟨S1x1x768, .f32⟩
  | .local _ .vmem, ⟨6, _⟩ => ⟨S1x768x768, .f32⟩
  | .local _ .vmem, ⟨7, _⟩ => ⟨S1x768x768, .f32⟩
  | .local _ .vmem, ⟨8, _⟩ => ⟨S768x768, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_v0_1 : Ref sig .tc := ⟨.hbm, 5, rfl⟩
abbrev main_v0_0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v7 : Index := Scalar.indexCast arg0
  let c0_6 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x1x768_S64x768 : S64x1x768.ShapeCasts S64x768
  inb_S768x768_S768x768_0_0 : ∀ a, (![0, 0] : Fin 2 → Nat) a + S768x768.size a ≤ S768x768.size a
  h_S768x768 : 0 < S768x768.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S768 : S1x768.ShapeCasts S768
  shapeCasts_S768_S1x768 : S768.ShapeCasts S1x768
  transposes_S768x768_p1_0_S768x768 : S768x768.Transposes [1, 0] S768x768
  inb_S1x1x768_S1x1x768_0_0_0 : ∀ a, (![0, 0, 0] : Fin 3 → Nat) a + S1x1x768.size a ≤ S1x1x768.size a
  h_S1x1x768 : 0 < S1x1x768.numel
  shapeCasts_S1x1x768_S768 : S1x1x768.ShapeCasts S768
  shapeCasts_S768_S1x1x768 : S768.ShapeCasts S1x1x768
  broadcasts_S1x768_S768x768 : S1x768.Broadcasts S768x768
  bitsLt_bf16_f32 : FTy.bits .bf16 < FTy.bits .f32
  iota_S768x768_d0_w32 : S768x768.Iotas .tc 32 [0]
  iota_S768x768_d1_w32 : S768x768.Iotas .tc 32 [1]
  shapeCasts_S768_S768x1 : S768.ShapeCasts S768x1
  shapeCasts_S768x1_S768x1 : S768x1.ShapeCasts S768x1
  broadcasts_S768x1_S768x768 : S768x1.Broadcasts S768x768
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  shapeCasts_S768x768_S1x768x768 : S768x768.ShapeCasts S1x768x768
  dot_S1x768_S768x768_S1x768_1_0_0_1_n_n_wf : DotDims.WF S1x768 S768x768 S1x768 [1] [0] [0] [1] [] []
  dot_S768x768_S768x768_S768x768_1_0_0_1_n_n_wf : DotDims.WF S768x768 S768x768 S768x768 [1] [0] [0] [1] [] []
  hrank0 : 0 < grid0.rank
  k0_off1_inb : ∀ i : grid0.Coords, ∀ a, (k0_off1 i) a + S1x768.size a ≤ S64x768.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x768.size a ≤ S64x768.size a
  hwx0_0 : ∀ i : grid0.Coords, EltTy.bits .f32 = 32 ∨ (Rect.block (s := S64x768) S64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x768.size a ≤ S64x1x768.size a
  hwx0_4 : ∀ i : grid0.Coords, EltTy.bits .f32 = 32 ∨ (Rect.block (s := S64x1x768) S1x1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x768x768.size a ≤ S64x768x768.size a
  hwx0_5 : ∀ i : grid0.Coords, EltTy.bits .f32 = 32 ∨ (Rect.block (s := S64x768x768) S1x768x768.size (cc0_transform_5 i) (hinb0_5 i)).WholeWords (EltTy.packing .f32)

variable [Facts₀]

def dot_S1x768_S768x768_S1x768_1_0_0_1_n_n : DotDims S1x768 S768x768 S1x768 where
  lhsContracting := [1]
  rhsContracting := [0]
  lhsNonContracting := [0]
  rhsNonContracting := [1]
  lhsBatch := []
  rhsBatch := []
  wf := dot_S1x768_S768x768_S1x768_1_0_0_1_n_n_wf
def dot_S768x768_S768x768_S768x768_1_0_0_1_n_n : DotDims S768x768 S768x768 S768x768 where
  lhsContracting := [1]
  rhsContracting := [0]
  lhsNonContracting := [0]
  rhsNonContracting := [1]
  lhsBatch := []
  rhsBatch := []
  wf := dot_S768x768_S768x768_S768x768_1_0_0_1_n_n_wf

abbrev win0_0 : Pipeline.Window sig grid0 :=
  Pipeline.Window.ofSpec (Memref.whole main_arg0) S64x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_0) S1x1x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x768x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x768 : Shape := ⟨2, ![64, 768]⟩
abbrev S768x768 : Shape := ⟨2, ![768, 768]⟩
abbrev S1x1 : Shape := ⟨2, ![1, 1]⟩
abbrev S1x768 : Shape := ⟨2, ![1, 768]⟩
abbrev S64x1x768 : Shape := ⟨3, ![64, 1, 768]⟩
abbrev S1x768x768 : Shape := ⟨3, ![1, 768, 768]⟩
abbrev S64x768x768 : Shape := ⟨3, ![64, 768, 768]⟩
abbrev S64x768x1 : Shape := ⟨3, ![64, 768, 1]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S768x768, .f32⟩
  | .hbm, ⟨2, _⟩ => ⟨S1x1, .f32⟩
  | .hbm, ⟨3, _⟩ => ⟨S1x768, .f32⟩
  | .hbm, ⟨4, _⟩ => ⟨S1x1, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768x768, .f32⟩
  | .hbm, ⟨9, _⟩ => ⟨S64x768, .f32⟩
  | .hbm, ⟨10, _⟩ => ⟨S64x768, .f32⟩
  | .hbm, ⟨11, _⟩ => ⟨S64x768, .f32⟩
  | .hbm, ⟨12, _⟩ => ⟨S64x768, .f32⟩
  | .hbm, ⟨13, _⟩ => ⟨S64x768, .f32⟩
  | .hbm, ⟨14, _⟩ => ⟨S768x768, .f32⟩
  | .hbm, ⟨15, _⟩ => ⟨S64x768, .f32⟩
  | .hbm, ⟨16, _⟩ => ⟨S64x1x768, .f32⟩
  | .hbm, ⟨17, _⟩ => ⟨S1x768x768, .f32⟩
  | .hbm, ⟨18, _⟩ => ⟨S64x768x768, .f32⟩
  | .hbm, ⟨19, _⟩ => ⟨S64x768x768, .f32⟩
  | .hbm, ⟨20, _⟩ => ⟨S64x768x768, .f32⟩
  | .hbm, ⟨21, _⟩ => ⟨S64x768x768, .f32⟩
  | .hbm, ⟨22, _⟩ => ⟨S64x768x1, .f32⟩
  | .hbm, ⟨23, _⟩ => ⟨S768x768, .i32⟩
  | .hbm, ⟨24, _⟩ => ⟨S768x768, .i32⟩
  | .hbm, ⟨25, _⟩ => ⟨S_, .i32⟩
  | .hbm, ⟨26, _⟩ => ⟨S768x768, .i32⟩
  | .hbm, ⟨27, _⟩ => ⟨S768x768, .i32⟩
  | .hbm, ⟨28, _⟩ => ⟨S768x768, .i1⟩
  | .hbm, ⟨29, _⟩ => ⟨S768x768, .f32⟩
  | .hbm, ⟨30, _⟩ => ⟨S1x768x768, .f32⟩
  | .hbm, ⟨31, _⟩ => ⟨S64x768x768, .f32⟩
  | .hbm, ⟨32, _⟩ => ⟨S64x768x768, .f32⟩
  | .hbm, ⟨33, _⟩ => ⟨S64x768x768, .f32⟩
  | .hbm, ⟨34, _⟩ => ⟨S64x768x768, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]

class Facts₀ : Prop where
  bcast_S1x1_S768x768_0_1 : S1x1.BroadcastsInDim S768x768 (![0, 1] : Fin 2 → Fin S768x768.rank)
  transposes_S768x768_S768x768_1_0 : S768x768.Transposes [1, 0] S768x768
  bcast_S1x768_S64x768_0_1 : S1x768.BroadcastsInDim S64x768 (![0, 1] : Fin 2 → Fin S64x768.rank)
  bcast_S64x768_S64x1x768_0_2 : S64x768.BroadcastsInDim S64x1x768 (![0, 2] : Fin 2 → Fin S64x1x768.rank)
  bcast_S768x768_S1x768x768_1_2 : S768x768.BroadcastsInDim S1x768x768 (![1, 2] : Fin 2 → Fin S1x768x768.rank)
  bcast_S64x1x768_S64x768x768_0_1_2 : S64x1x768.BroadcastsInDim S64x768x768 (![0, 1, 2] : Fin 3 → Fin S64x768x768.rank)
  bcast_S1x768x768_S64x768x768_0_1_2 : S1x768x768.BroadcastsInDim S64x768x768 (![0, 1, 2] : Fin 3 → Fin S64x768x768.rank)
  bcast_S64x768_S64x768x1_0_1 : S64x768.BroadcastsInDim S64x768x1 (![0, 1] : Fin 2 → Fin S64x768x1.rank)
  bcast_S_S768x768 : S_.BroadcastsInDim S768x768 (![] : Fin 0 → Fin S768x768.rank)
  bcast_S64x768x1_S64x768x768_0_1_2 : S64x768x1.BroadcastsInDim S64x768x768 (![0, 1, 2] : Fin 3 → Fin S64x768x768.rank)
  dot_S64x768_S768x768_S64x768_1_0_0_1_n_n_wf : DotDims.WF S64x768 S768x768 S64x768 [1] [0] [0] [1] [] []
  dot_S64x768x768_S64x768x768_S64x768x768_2_2_1_1_0_0_wf : DotDims.WF S64x768x768 S64x768x768 S64x768x768 [2] [2] [1] [1] [0] [0]

variable [Facts₀]

def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768x768_S64x768x768_S64x768x768_2_2_1_1_0_0 : DotDims S64x768x768 S64x768x768 S64x768x768 where
  lhsContracting := [2]
  rhsContracting := [2]
  lhsNonContracting := [1]
  rhsNonContracting := [1]
  lhsBatch := [0]
  rhsBatch := [0]
  wf := dot_S64x768x768_S64x768x768_S64x768x768_2_2_1_1_0_0_wf

class Facts : Prop extends Facts₀ where

variable [Facts]
-- ==== Proof.Spec.lean ====
/-
  The mathematics both programs compute, as functions of the four argument arrays over the extended reals.

  With x : [64, 768], W : [768, 768], a : [1, 1] (a log-scale) and β : [1, 768]:
    the weight variance      s(o, k)    = (exp a · W(o, k)) · W(o, k),
    the output mean          μ(b, o)    = Σₖ x(b, k) · W(o, k) + β(o),
    the diagonal term        d(b, o)    = Σₖ (x(b, k)² + x(b, k)²) · s(o, k),
    the cross term           c(b, o, p) = Σₖ (x(b, k) · W(o, k)) · (x(b, k) · W(p, k)),
    the output covariance    v(b, o, p) = c(b, o, p) + (d(b, o) if o = p, else 0).
  One side adds the diagonal term by selecting it on the diagonal, the other multiplies it by the identity matrix's
  entry; on the extended reals t · 1 = t and t · 0 = 0 for every t, the infinities included, so the two agree with
  no finiteness assumption (`mul_diag`).
-/
import Idealize.ShloMosaic.PureOps.Ideal
import Idealize.ShloMosaic.Lib.ValueIdx

noncomputable section

open Idealize.ShloMosaic Idealize.ShloMosaic.ValueIdx

namespace Cert.Spec

abbrev Sx : Shape := ⟨2, ![64, 768]⟩
abbrev Sw : Shape := ⟨2, ![768, 768]⟩
abbrev Sa : Shape := ⟨2, ![1, 1]⟩
abbrev Sb : Shape := ⟨2, ![1, 768]⟩
abbrev Sm3 : Shape := ⟨3, ![64, 1, 768]⟩
abbrev Sv : Shape := ⟨3, ![64, 768, 768]⟩

variable (x : Sx.Idx → EReal) (W : Sw.Idx → EReal) (a : Sa.Idx → EReal) (β : Sb.Idx → EReal)

/-- The weight variance s(o, k) = (exp a · W(o, k)) · W(o, k). -/
def wvar (o k : Fin 768) : EReal := Ideal.exp (a (ix2 0 0)) * W (ix2 o k) * W (ix2 o k)

/-- The output mean μ(b, o) = Σₖ x(b, k) · W(o, k) + β(o). -/
def mean (b : Fin 64) (o : Fin 768) : EReal := (∑ k : Fin 768, x (ix2 b k) * W (ix2 o k)) + β (ix2 0 o)

/-- The diagonal term d(b, o) = Σₖ (x(b, k)² + x(b, k)²) · s(o, k). -/
def diagTerm (b : Fin 64) (o : Fin 768) : EReal :=
  ∑ k : Fin 768, (x (ix2 b k) * x (ix2 b k) + x (ix2 b k) * x (ix2 b k)) * wvar W a o k

/-- The cross term c(b, o, p) = Σₖ (x(b, k) · W(o, k)) · (x(b, k) · W(p, k)). -/
def crossTerm (b : Fin 64) (o p : Fin 768) : EReal :=
  ∑ k : Fin 768, (x (ix2 b k) * W (ix2 o k)) * (x (ix2 b k) * W (ix2 p k))

/-- The output covariance v(b, o, p) = c(b, o, p) + [o = p] d(b, o). -/
def var (b : Fin 64) (o p : Fin 768) : EReal :=
  crossTerm x W b o p + (if o = p then diagTerm x W a b o else 0)

/-- The mean as a [64, 768] array, -/
def meanArr : Sx.Idx → EReal := fun i => mean x W β (i 0) (i 1)
/-- as a [64, 1, 768] array (a unit middle axis), -/
def mean3Arr : Sm3.Idx → EReal := fun i => mean x W β (i 0) (i 2)
/-- and the covariance as a [64, 768, 768] array. -/
def varArr : Sv.Idx → EReal := fun i => var x W a (i 0) (i 1) (i 2)

/-- Multiplying by the identity matrix's entry selects on the diagonal: t · 1 = t and t · 0 = 0 on the extended reals. -/
theorem mul_diag (t : EReal) (o p : Fin 768) :
    t * (((if o = p then 1 else 0 : ℕ) : ℝ) : EReal) = if o = p then t else 0 := by
  by_cases h : o = p
  · simp [h]
  · simp [h]

/-- Two lane numbers below 2³² are equal as 32-bit words exactly when they are equal. -/
theorem word_eq_iff (o p : Fin 768) : BitVec.ofNat 32 o.val = BitVec.ofNat 32 p.val ↔ o = p := by
  constructor
  · intro h
    have := congrArg BitVec.toNat h
    simp only [BitVec.toNat_ofNat] at this
    have ho := o.isLt; have hp := p.isLt
    exact Fin.ext (by omega)
  · rintro rfl; rfl

end Cert.Spec

end
-- ==== Proof.RefValue.lean ====
import proofs.«129302_j44358422233577_1_alg».proof.Proof.Spec
import proofs.«129302_j44358422233577_1_alg».proof.Proof.Gen.ReferenceIdeal.Run
import proofs.«129302_j44358422233577_1_alg».proof.Proof.Gen.ReferenceIdeal.Read

/-
  The reference program computes the specification.

  Each stage of the reference is read at an index given by its coordinates, innermost stage first. The layout
  stages (transposes, broadcasts) only move coordinates around; the three contractions are sums over k : Fin 768;
  the identity matrix's entry at (o, p) is the natural number [o = p] seen as a real, and multiplying the diagonal
  term by it selects the term on the diagonal and gives 0 off it.
-/

noncomputable section

open Idealize.ShloMosaic Idealize.ShloMosaic.ValueIdx Cert.ReferenceIdeal Cert.ReferenceIdeal.Read

namespace Cert.RefValue

variable (x : Cert.Spec.Sx.Idx → EReal) (W : Cert.Spec.Sw.Idx → EReal) (a : Cert.Spec.Sa.Idx → EReal)
  (β : Cert.Spec.Sb.Idx → EReal)

/-! ## The mean -/

/-- The transposed weight at (k, o) is the weight at (o, k). -/
theorem wT_at (o k : Fin 768) : val_main_v4 (F := Ideal) W (ix2 k o) = W (ix2 o k) := by
  rw [val_main_v4_apply]
  exact congrArg W (funext fun d => by match d with | ⟨0, _⟩ => rfl | ⟨1, _⟩ => rfl)

/-- The first contraction at (b, o) is Σₖ x(b, k) · W(o, k). -/
theorem lin_at (b : Fin 64) (o : Fin 768) :
    val_main_v5 (F := Ideal) x W (ix2 b o) = ∑ k : Fin 768, x (ix2 b k) * W (ix2 o k) := by
  rw [val_main_v5_apply]
  refine Finset.sum_congr rfl fun k _ => ?_
  have e1 : lidx_main_v5 (ix2 b o) k = ix2 b k :=
    funext fun d => by match d with | ⟨0, _⟩ => rfl | ⟨1, _⟩ => rfl
  have e2 : ridx_main_v5 (ix2 b o) k = ix2 k o :=
    funext fun d => by match d with | ⟨0, _⟩ => rfl | ⟨1, _⟩ => rfl
  rw [e1, e2, wT_at]

/-- The bias broadcast along the rows reads β(o). -/
theorem bias_at (b : Fin 64) (o : Fin 768) : val_main_v6 (F := Ideal) β (ix2 b o) = β (ix2 0 o) := by
  rw [val_main_v6_apply]
  exact congrArg β (funext fun d => by match d with | ⟨0, _⟩ => rfl | ⟨1, _⟩ => rfl)

/-- The reference's first result is the mean μ(b, o) = Σₖ x(b, k) · W(o, k) + β(o). -/
theorem ref_mean (x : Cert.Spec.Sx.Idx → EReal) (W : Cert.Spec.Sw.Idx → EReal) (β : Cert.Spec.Sb.Idx → EReal) :
    Cert.ReferenceIdeal.Read.val_main_v7 (F := Ideal) x W β = Cert.Spec.meanArr x W β := by
  funext i
  obtain ⟨b, o, rfl⟩ : ∃ (b : Fin 64) (o : Fin 768), i = ix2 b o := ⟨i 0, i 1, eq_ix2 i⟩
  rw [val_main_v7_apply, lin_at, bias_at, Ideal.addf_def]
  rfl

/-! ## The covariance -/

/-- The weight variance: (exp a · W(o, k)) · W(o, k). -/
theorem wvar_at (o k : Fin 768) : val_main_v3 (F := Ideal) W a (ix2 o k) = Cert.Spec.wvar W a o k := by
  rw [val_main_v3_apply, val_main_v2_apply, val_main_v1_apply, val_main_v0_apply,
    Ideal.mulf_def, Ideal.mulf_def, Ideal.hostUnary_exp_def]
  have e : idx_main_v1 (ix2 o k) = ix2 (0 : Fin 1) (0 : Fin 1) :=
    funext fun d => by match d with | ⟨0, _⟩ => rfl | ⟨1, _⟩ => rfl
  rw [e]
  rfl

/-- Its transpose at (k, o) is the weight variance at (o, k). -/
theorem wvarT_at (o k : Fin 768) : val_main_v10 (F := Ideal) W a (ix2 k o) = Cert.Spec.wvar W a o k := by
  rw [val_main_v10_apply]
  have e : idx_main_v10 (ix2 k o) = ix2 o k :=
    funext fun d => by match d with | ⟨0, _⟩ => rfl | ⟨1, _⟩ => rfl
  rw [e, wvar_at]

/-- The doubled square of the input: x(b, k)² + x(b, k)². -/
theorem sq2_at (b : Fin 64) (k : Fin 768) :
    val_main_v9 (F := Ideal) x (ix2 b k) = x (ix2 b k) * x (ix2 b k) + x (ix2 b k) * x (ix2 b k) := by
  rw [val_main_v9_apply, val_main_v8_apply, Ideal.addf_def, Ideal.mulf_def]

/-- The second contraction at (b, o) is the diagonal term d(b, o). -/
theorem diag_at (b : Fin 64) (o : Fin 768) :
    val_main_v11 (F := Ideal) x W a (ix2 b o) = Cert.Spec.diagTerm x W a b o := by
  rw [val_main_v11_apply]
  unfold Cert.Spec.diagTerm
  refine Finset.sum_congr rfl fun k _ => ?_
  have e1 : lidx_main_v11 (ix2 b o) k = ix2 b k :=
    funext fun d => by match d with | ⟨0, _⟩ => rfl | ⟨1, _⟩ => rfl
  have e2 : ridx_main_v11 (ix2 b o) k = ix2 k o :=
    funext fun d => by match d with | ⟨0, _⟩ => rfl | ⟨1, _⟩ => rfl
  rw [e1, e2, sq2_at, wvarT_at]

/-- The diagonal term broadcast along the last axis reads d(b, o) at (b, o, p). -/
theorem diagB_at (b : Fin 64) (o p : Fin 768) :
    val_main_v26 (F := Ideal) x W a (ix3 b o p) = Cert.Spec.diagTerm x W a b o := by
  rw [val_main_v26_apply, val_main_v18_apply]
  have e : idx_main_v18 (idx_main_v26 (ix3 b o p)) = ix2 b o :=
    funext fun d => by match d with | ⟨0, _⟩ => rfl | ⟨1, _⟩ => rfl
  rw [e, diag_at]

/-- The broadcast product at (b, o, k) is x(b, k) · W(o, k). -/
theorem prod_at (b : Fin 64) (o k : Fin 768) :
    val_main_v16 (F := Ideal) x W (ix3 b o k) = x (ix2 b k) * W (ix2 o k) := by
  rw [val_main_v16_apply, val_main_v14_apply, val_main_v12_apply, val_main_v15_apply, val_main_v13_apply,
    Ideal.mulf_def]
  have e1 : idx_main_v12 (idx_main_v14 (ix3 b o k)) = ix2 b k :=
    funext fun d => by match d with | ⟨0, _⟩ => rfl | ⟨1, _⟩ => rfl
  have e2 : idx_main_v13 (idx_main_v15 (ix3 b o k)) = ix2 o k :=
    funext fun d => by match d with | ⟨0, _⟩ => rfl | ⟨1, _⟩ => rfl
  rw [e1, e2]

/-- The batched contraction at (b, o, p) is the cross term c(b, o, p). -/
theorem cross_at (b : Fin 64) (o p : Fin 768) :
    val_main_v17 (F := Ideal) x W (ix3 b o p) = Cert.Spec.crossTerm x W b o p := by
  rw [val_main_v17_apply]
  unfold Cert.Spec.crossTerm
  refine Finset.sum_congr rfl fun k _ => ?_
  have e1 : lidx_main_v17 (ix3 b o p) k = ix3 b o k :=
    funext fun d => by match d with | ⟨0, _⟩ => rfl | ⟨1, _⟩ => rfl | ⟨2, _⟩ => rfl
  have e2 : ridx_main_v17 (ix3 b o p) k = ix3 b p k :=
    funext fun d => by match d with | ⟨0, _⟩ => rfl | ⟨1, _⟩ => rfl | ⟨2, _⟩ => rfl
  rw [e1, e2, prod_at, prod_at]

/-- The comparison of the two lane numbers, as a one-bit word, is [o = p]. -/
theorem eye_word (o p : Fin 768) :
    (IntOp.cmpi .eq (IntOp.addi (BitVec.ofNat 32 o.val) 0#32) (BitVec.ofNat 32 p.val)).toNat
      = if o = p then 1 else 0 := by
  have h0 : IntOp.addi (BitVec.ofNat 32 o.val) 0#32 = BitVec.ofNat 32 o.val := by
    unfold IntOp.addi; exact BitVec.add_zero _
  rw [h0]
  show (BitVec.ofBool (BitVec.ofNat 32 o.val == BitVec.ofNat 32 p.val)).toNat = _
  by_cases h : o = p
  · subst h; simp
  · have hne : ¬ BitVec.ofNat 32 o.val = BitVec.ofNat 32 p.val :=
      fun e => h ((Cert.Spec.word_eq_iff o p).mp e)
    simp [h, hne]

/-- The identity matrix's entry at (o, p), as an extended real, is [o = p]. -/
theorem eye_at (o p : Fin 768) :
    val_main_v24 (F := Ideal) (ix2 o p) = (((if o = p then 1 else 0 : ℕ) : ℝ) : EReal) := by
  rw [val_main_v24_apply, val_main_v23_apply, val_main_v22_apply, val_main_v21_apply, val_main_c_apply,
    val_main_v19_apply, val_main_v20_apply]
  show (((IntOp.cmpi .eq (IntOp.addi (BitVec.ofNat 32 o.val) 0#32) (BitVec.ofNat 32 p.val)).toNat : ℝ) : EReal) = _
  rw [eye_word]

/-- Broadcast over the batch axis it still reads [o = p] at (b, o, p). -/
theorem eyeB_at (b : Fin 64) (o p : Fin 768) :
    val_main_v27 (F := Ideal) (ix3 b o p) = (((if o = p then 1 else 0 : ℕ) : ℝ) : EReal) := by
  rw [val_main_v27_apply, val_main_v25_apply]
  have e : idx_main_v25 (idx_main_v27 (ix3 b o p)) = ix2 o p :=
    funext fun d => by match d with | ⟨0, _⟩ => rfl | ⟨1, _⟩ => rfl
  rw [e, eye_at]

/-- The reference's second result is the covariance v(b, o, p) = c(b, o, p) + [o = p] d(b, o). -/
theorem ref_var (x : Cert.Spec.Sx.Idx → EReal) (W : Cert.Spec.Sw.Idx → EReal) (a : Cert.Spec.Sa.Idx → EReal) :
    Cert.ReferenceIdeal.Read.val_main_v29 (F := Ideal) x W a = Cert.Spec.varArr x W a := by
  funext i
  obtain ⟨b, o, p, rfl⟩ : ∃ (b : Fin 64) (o p : Fin 768), i = ix3 b o p := ⟨i 0, i 1, i 2, eq_ix3 i⟩
  rw [val_main_v29_apply, val_main_v28_apply, cross_at, diagB_at, eyeB_at, Ideal.addf_def, Ideal.mulf_def,
    Cert.Spec.mul_diag]
  rfl

end Cert.RefValue

end
-- ==== Proof.KernelPieces.lean ====
/-
  What one grid point of the kernel leaves behind, as plain values of what it loads.

  At a grid point the body loads the whole weight block W, the 1×1 log-scale block a, the bias block β and ONE row of
  the x block — the row numbered by the grid coordinate — and stores:
    into the mean's block        μ-row = (row · Wᵀ) + β,
    into the covariance's block  the cross term of the row's products with W, plus the diagonal term taken against
                                 the weight variance s it reads from its scratch buffer,
    into the scratch buffer      s = (exp a · W) · W, at the first grid point only; later points leave it as it is.
  At the first point the variance read back is the one just stored. Each statement below says this of one buffer, in
  each of the two control cases (first point; any later point), for any float values.
-/
import proofs.«129302_j44358422233577_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row of the x block the body loads at grid coordinates `i`: row `i 0`, all 768 lanes. -/
def xrow (i : grid0.Coords) (x0 : Vec F S64x768 .f32) : Vec F S1x768 .f32 :=
  View.ld x0 (Rect.unit (s := S64x768) (k0_off1 i) S1x768.size (k0_off1_inb i))

/-- The mean's row a point computes from the weight block, the bias block and its row of x. -/
abbrev meanRow (i : grid0.Coords) (x0 : Vec F S64x768 .f32) (x1 : Vec F S768x768 .f32) (x3 : Vec F S1x768 .f32) :
    Vec F S1x1x768 .f32 := k0_pay4 x1 x3 (xrow i x0)

/-- The covariance block a point computes from the weight block, the weight variance `s` and its row of x. -/
abbrev varBlock (i : grid0.Coords) (x0 : Vec F S64x768 .f32) (x1 s : Vec F S768x768 .f32) : Vec F S1x768x768 .f32 :=
  k0_pay1 (k0_pay5 x1 s (xrow i x0))

/-- The weight variance the first point stores in the scratch buffer. -/
abbrev wvarBlock (x1 : Vec F S768x768 .f32) (x2 : Vec F S1x1 .f32) : Vec F S768x768 .f32 := k0_pay2 x1 x2

/-- First point, the mean's block. -/
theorem out_A_4 (c : Dev nD) (i : grid0.Coords) (arg1 : Memref sig .tc .vmem S64x768 .f32) (harg1 : arg1.IsWhole) (arg2 : Memref sig .tc .vmem S768x768 .f32) (harg2 : arg2.IsWhole) (arg3 : Memref sig .tc .vmem S1x1 .f32) (harg3 : arg3.IsWhole) (arg4 : Memref sig .tc .vmem S1x768 .f32) (harg4 : arg4.IsWhole) (arg5 : Memref sig .tc .vmem S1x1x768 .f32) (harg5 : arg5.IsWhole) (arg6 : Memref sig .tc .vmem S1x768x768 .f32) (harg6 : arg6.IsWhole) (arg7 : Memref sig .tc .vmem S768x768 .f32) (harg7 : arg7.IsWhole) (hc0 : cond0_0 i) (x0 : Vec F S64x768 .f32) (x1 : Vec F S768x768 .f32) (x2 : Vec F S1x1 .f32) (x3 : Vec F S1x768 .f32) :
    out0_A_4 c i arg1 harg1 arg2 harg2 arg3 harg3 arg4 harg4 arg5 harg5 arg6 harg6 arg7 harg7 hc0 x0 x1 x2 x3 = meanRow i x0 x1 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg1.read_unread, harg2.read_unread, harg4.read_unread,
    View.ld_unit_zero (S := S768x768) hz2, View.ld_unit_zero (S := S1x768) hz2]
  rfl

/-- First point, the covariance's block: the variance it reads is the one it has just stored. -/
theorem out_A_5 (c : Dev nD) (i : grid0.Coords) (arg1 : Memref sig .tc .vmem S64x768 .f32) (harg1 : arg1.IsWhole) (arg2 : Memref sig .tc .vmem S768x768 .f32) (harg2 : arg2.IsWhole) (arg3 : Memref sig .tc .vmem S1x1 .f32) (harg3 : arg3.IsWhole) (arg4 : Memref sig .tc .vmem S1x768 .f32) (harg4 : arg4.IsWhole) (arg5 : Memref sig .tc .vmem S1x1x768 .f32) (harg5 : arg5.IsWhole) (arg6 : Memref sig .tc .vmem S1x768x768 .f32) (harg6 : arg6.IsWhole) (arg7 : Memref sig .tc .vmem S768x768 .f32) (harg7 : arg7.IsWhole) (hc0 : cond0_0 i) (x0 : Vec F S64x768 .f32) (x1 : Vec F S768x768 .f32) (x2 : Vec F S1x1 .f32) (x3 : Vec F S1x768 .f32) :
    out0_A_5 c i arg1 harg1 arg2 harg2 arg3 harg3 arg4 harg4 arg5 harg5 arg6 harg6 arg7 harg7 hc0 x0 x1 x2 x3 = varBlock i x0 x1 (wvarBlock x1 x2) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg1.read_unread, harg2.read_unread, harg3.read_unread,
    View.ld_unit_zero (S := S768x768) hz2, View.ld_unit_zero (S := S1x1) hz2,
    View.readCov_unit_zero (S := S768x768) _ hz2]
  rfl

/-- First point, the scratch buffer: the weight variance. -/
theorem sout_A (c : Dev nD) (i : grid0.Coords) (arg1 : Memref sig .tc .vmem S64x768 .f32) (harg1 : arg1.IsWhole) (arg2 : Memref sig .tc .vmem S768x768 .f32) (harg2 : arg2.IsWhole) (arg3 : Memref sig .tc .vmem S1x1 .f32) (harg3 : arg3.IsWhole) (arg4 : Memref sig .tc .vmem S1x768 .f32) (harg4 : arg4.IsWhole) (arg5 : Memref sig .tc .vmem S1x1x768 .f32) (harg5 : arg5.IsWhole) (arg6 : Memref sig .tc .vmem S1x768x768 .f32) (harg6 : arg6.IsWhole) (arg7 : Memref sig .tc .vmem S768x768 .f32) (harg7 : arg7.IsWhole) (hc0 : cond0_0 i) (x0 : Vec F S64x768 .f32) (x1 : Vec F S768x768 .f32) (x2 : Vec F S1x1 .f32) (x3 : Vec F S1x768 .f32) :
    sout0_A_0 c i arg1 harg1 arg2 harg2 arg3 harg3 arg4 harg4 arg5 harg5 arg6 harg6 arg7 harg7 hc0 x0 x1 x2 x3 = wvarBlock x1 x2 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread,
    View.ld_unit_zero (S := S768x768) hz2, View.ld_unit_zero (S := S1x1) hz2]

/-- A later point, the mean's block. -/
theorem out_B_4 (c : Dev nD) (i : grid0.Coords) (arg1 : Memref sig .tc .vmem S64x768 .f32) (harg1 : arg1.IsWhole) (arg2 : Memref sig .tc .vmem S768x768 .f32) (harg2 : arg2.IsWhole) (arg3 : Memref sig .tc .vmem S1x1 .f32) (harg3 : arg3.IsWhole) (arg4 : Memref sig .tc .vmem S1x768 .f32) (harg4 : arg4.IsWhole) (arg5 : Memref sig .tc .vmem S1x1x768 .f32) (harg5 : arg5.IsWhole) (arg6 : Memref sig .tc .vmem S1x768x768 .f32) (harg6 : arg6.IsWhole) (arg7 : Memref sig .tc .vmem S768x768 .f32) (harg7 : arg7.IsWhole) (hc0 : ¬cond0_0 i) (x0 : Vec F S64x768 .f32) (x1 : Vec F S768x768 .f32) (x2 : Vec F S1x1 .f32) (x3 : Vec F S1x768 .f32) (xs0 : Vec F S768x768 .f32) :
    out0_B_4 c i arg1 harg1 arg2 harg2 arg3 harg3 arg4 harg4 arg5 harg5 arg6 harg6 arg7 harg7 hc0 x0 x1 x2 x3 xs0 = meanRow i x0 x1 x3 := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg1.read_unread, harg2.read_unread, harg4.read_unread,
    View.ld_unit_zero (S := S768x768) hz2, View.ld_unit_zero (S := S1x768) hz2]
  rfl

/-- A later point, the covariance's block: the variance it reads is what the scratch buffer held. -/
theorem out_B_5 (c : Dev nD) (i : grid0.Coords) (arg1 : Memref sig .tc .vmem S64x768 .f32) (harg1 : arg1.IsWhole) (arg2 : Memref sig .tc .vmem S768x768 .f32) (harg2 : arg2.IsWhole) (arg3 : Memref sig .tc .vmem S1x1 .f32) (harg3 : arg3.IsWhole) (arg4 : Memref sig .tc .vmem S1x768 .f32) (harg4 : arg4.IsWhole) (arg5 : Memref sig .tc .vmem S1x1x768 .f32) (harg5 : arg5.IsWhole) (arg6 : Memref sig .tc .vmem S1x768x768 .f32) (harg6 : arg6.IsWhole) (arg7 : Memref sig .tc .vmem S768x768 .f32) (harg7 : arg7.IsWhole) (hc0 : ¬cond0_0 i) (x0 : Vec F S64x768 .f32) (x1 : Vec F S768x768 .f32) (x2 : Vec F S1x1 .f32) (x3 : Vec F S1x768 .f32) (xs0 : Vec F S768x768 .f32) :
    out0_B_5 c i arg1 harg1 arg2 harg2 arg3 harg3 arg4 harg4 arg5 harg5 arg6 harg6 arg7 harg7 hc0 x0 x1 x2 x3 xs0 = varBlock i x0 x1 xs0 := by
  unfold out0_B_5
  rw [View.read_writes_eq_canon _ _ _ (cover0_B_5 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg1.read_unread, harg2.read_unread, harg7.read_unread,
    View.ld_unit_zero (S := S768x768) hz2]
  rfl

end Cert.KValue

end
-- ==== Proof.KernelBlocks.lean ====
/-
  The kernel's buffers point by point.

  Every input window's block is its whole array at every grid point (the block index never moves), so at point t the
  body sees the whole of x, W, a and β, and works on row t of x. The scratch buffer holds the weight variance
  s = (exp a · W) · W after EVERY point: the first point stores it and no later point writes the buffer — an induction
  over the points. Hence at every point the mean's staging block is the mean's row t and the covariance's staging
  block is the covariance's block t computed against s, whichever control case the point is in.
-/
import proofs.«129302_j44358422233577_1_alg».proof.Proof.KernelPieces

set_option maxRecDepth 16384

noncomputable section

open Idealize.ShloMosaic Idealize.ShloMosaic.TcCoe Idealize.SL.Sem

namespace Cert.KValue

open Cert.KernelIdeal Cert.KernelIdeal.Gen

variable {F : FTy → Type} [FloatOps F]
variable (m : (ℓ : Loc nD τ sig) → Buf (Elt F) ℓ)

/-- The four argument arrays as the region finds them. -/
abbrev xArr (c : Dev nD) : Vec F S64x768 .f32 := V m c main_arg0
abbrev wArr (c : Dev nD) : Vec F S768x768 .f32 := V m c main_arg1
abbrev aArr (c : Dev nD) : Vec F S1x1 .f32 := V m c main_arg2
abbrev bArr (c : Dev nD) : Vec F S1x768 .f32 := V m c main_arg3

/-- The index maps over the grid: every input block index is (0, 0); the outputs' is (t, 0, 0); the row the body loads
    is row t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ k0_off1 (grid0.coords t) (0 : Fin 2) = t.val ∧ k0_off1 (grid0.coords t) (1 : Fin 2) = 0 :=
  (by decide +kernel : ∀ t : Fin grid0.N, _)

/-- The x window's block at any point is the whole of x. -/
theorem iblk0_eq (c : Dev nD) (t : Fin cfg0.N) : (iblk m c 0 t : Vec F S64x768 .f32) = xArr m c := by
  obtain ⟨e0, e1, -⟩ := idx_facts t
  funext j
  show V m c main_arg0 (((cfg0.win 0).blk t).view.emb j) = V m c main_arg0 j
  refine congrArg (V m c main_arg0) (funext fun a => Fin.ext ?_)
  match a with
  | ⟨0, _⟩ => show win0_0.index t (0 : Fin 2) * 64 + 1 * (j 0).val = (j 0).val; rw [e0]; omega
  | ⟨1, _⟩ => show win0_0.index t (1 : Fin 2) * 768 + 1 * (j 1).val = (j 1).val; rw [e1]; omega

/-- The W window's block at any point is the whole of W. -/
theorem iblk1_eq (c : Dev nD) (t : Fin cfg0.N) : (iblk m c 1 t : Vec F S768x768 .f32) = wArr m c := by
  obtain ⟨-, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 768 + 1 * (j 0).val = (j 0).val; rw [e0]; omega
  | ⟨1, _⟩ => show win0_1.index t (1 : Fin 2) * 768 + 1 * (j 1).val = (j 1).val; rw [e1]; omega

/-- The log-scale window's block at any point is the whole 1×1 array. -/
theorem iblk2_eq (c : Dev nD) (t : Fin cfg0.N) : (iblk m c 2 t : Vec F S1x1 .f32) = aArr m c := by
  obtain ⟨-, -, -, -, e0, e1, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 1 + 1 * (j 0).val = (j 0).val; rw [e0]; omega
  | ⟨1, _⟩ => show win0_2.index t (1 : Fin 2) * 1 + 1 * (j 1).val = (j 1).val; rw [e1]; omega

/-- The bias window's block at any point is the whole of β. -/
theorem iblk3_eq (c : Dev nD) (t : Fin cfg0.N) : (iblk m c 3 t : Vec F S1x768 .f32) = bArr m c := by
  obtain ⟨-, -, -, -, -, -, e0, e1, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 1 + 1 * (j 0).val = (j 0).val; rw [e0]; omega
  | ⟨1, _⟩ => show win0_3.index t (1 : Fin 2) * 768 + 1 * (j 1).val = (j 1).val; rw [e1]; omega

/-- THE SCRATCH INVARIANT: after every point the scratch buffer holds the weight variance of W and a. -/
theorem scratch_eq (c : Dev nD) : ∀ (n : ℕ) (h : n < cfg0.N),
    (outsAt0 m c n h).2.2 = wvarBlock (wArr m c) (aArr m c)
  | 0, h => by
    have key := outsAt0_A m c ⟨0, h⟩ rfl
    rw [key]; dsimp only
    exact (sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)).trans
      (by rw [iblk1_eq m c ⟨0, h⟩, iblk2_eq m c ⟨0, h⟩])
  | n + 1, h => by
    by_cases h0 : (⟨n + 1, h⟩ : Fin cfg0.N).val % 64 = 0
    · have key := outsAt0_A m c ⟨n + 1, h⟩ h0
      rw [key]; dsimp only
      exact (sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)).trans
        (by rw [iblk1_eq m c ⟨n + 1, h⟩, iblk2_eq m c ⟨n + 1, h⟩])
    · have key := outsAt0_B m c ⟨n + 1, h⟩ h0
      rw [key]; dsimp only
      unfold sout0_B_0
      exact scratch_eq c n _

/-- At every point the mean's staging block is the mean's row of that point. -/
theorem mean_at (c : Dev nD) (t : Fin cfg0.N) :
    (outsAt0 m c t.val t.isLt).1 = meanRow (grid0.coords t) (xArr m c) (wArr m c) (bArr m c) := by
  by_cases h0 : t.val % 64 = 0
  · rw [outsAt0_A m c t h0]; dsimp only
    exact (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)).trans
      (by rw [iblk0_eq m c t, iblk1_eq m c t, iblk3_eq m c t])
  · rw [outsAt0_B m c t h0]; dsimp only
    exact (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) _).trans
      (by rw [iblk0_eq m c t, iblk1_eq m c t, iblk3_eq m c t])

/-- At every point the covariance's staging block is that point's block, computed against the weight variance. -/
theorem var_at (c : Dev nD) (t : Fin cfg0.N) :
    (outsAt0 m c t.val t.isLt).2.1 = varBlock (grid0.coords t) (xArr m c) (wArr m c) (wvarBlock (wArr m c) (aArr m c)) := by
  by_cases h0 : t.val % 64 = 0
  · rw [outsAt0_A m c t h0]; dsimp only
    exact (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)).trans
      (by rw [iblk0_eq m c t, iblk1_eq m c t, iblk2_eq m c t])
  · rw [outsAt0_B m c t h0]; dsimp only
    exact (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) _).trans
      (by rw [scratch_eq m c (t.val - 1) _, iblk0_eq m c t, iblk1_eq m c t])

end Cert.KValue

end
-- ==== Proof.KernelPay.lean ====
/-
  The kernel body's payloads read at an index, at the ideal values (extended reals).

  With w the weight block [768, 768], a the log-scale block [1, 1], β the bias block [1, 768], r the row of x the
  body loads at its grid point [1, 768] and s the scratch contents [768, 768]:
    the scratch payload      (o, k) ↦ (exp a · w(o, k)) · w(o, k),
    the mean payload         (0, 0, o) ↦ Σₖ r(k) · w(o, k) + β(o),
    the covariance payload   (o, p) ↦ Σₖ (r(k) · w(o, k)) · (r(k) · w(p, k)) + [o = p] Σₖ (r(k)² + r(k)²) · s(o, k),
    the stored block         (0, o, p) ↦ v(o, p).
  Each layout operation (shape cast, transpose, broadcast, iota) is read at explicit coordinates; each matrix
  product is the sum over its one contracted axis, re-indexed by that axis's coordinate.
-/
import proofs.«129302_j44358422233577_1_alg».proof.Proof.Gen.KernelIdeal.Skeleton
import proofs.«129302_j44358422233577_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelPay

open Cert.KernelIdeal Cert.KernelIdeal.Gen Idealize.ShloMosaic Idealize.ShloMosaic.ValueIdx

variable [Cert.KernelIdeal.Facts]

/-! ## Layout operations at explicit coordinates -/

section Layout
variable {α : Type}

/-- A [768] vector cast to [1, 1, 768] reads, at (u, u', o), the operand at o. -/
theorem cast_a_11a (x : S768.Idx → α) (h : S768.ShapeCasts S1x1x768) (u u' : Fin 1) (o : Fin 768) :
    shapeCast S1x1x768 x h (ix3 u u' o) = x (ix1 o) :=
  shapeCast_apply x h _ _ (by
    have hu : u.val = 0 := by omega
    have hu' : u'.val = 0 := by omega
    rw [Shape.rowMajor_val_three, Shape.rowMajor_val_one]
    show o.val = (u.val * 1 + u'.val) * 768 + o.val
    omega)

/-- A [768] vector cast to the column [768, 1] reads, at (o, u), the operand at o. -/
theorem cast_a_a1 (x : S768.Idx → α) (h : S768.ShapeCasts S768x1) (o : Fin 768) (u : Fin 1) :
    shapeCast S768x1 x h (ix2 o u) = x (ix1 o) :=
  shapeCast_apply x h _ _ (by
    have hu : u.val = 0 := by omega
    rw [Shape.rowMajor_val_two, Shape.rowMajor_val_one]
    show o.val = o.val * 1 + u.val
    omega)

/-- A column [768, 1] broadcast to [768, 768] reads, at (o, p), the column at row o. -/
theorem bcast_a1_ab (x : S768x1.Idx → α) (h : S768x1.Broadcasts S768x768) (o p : Fin 768) :
    broadcastTo S768x768 x h (ix2 o p) = x (ix2 o (0 : Fin 1)) := by
  refine broadcastTo_apply x h (ix2 o p) (ix2 o (0 : Fin 1)) fun ax => ?_
  match ax with
  | ⟨0, _⟩ => rfl
  | ⟨1, _⟩ => rfl

/-- The one entry of a [1, 1] block. -/
theorem extract_00 (x : S1x1.Idx → α) (h : ∀ a, (![0, 0] : Fin 2 → Nat) a < S1x1.size a) :
    extractAt ![0, 0] x h = x (ix2 0 0) :=
  congrArg x (funext fun d => match d with
    | ⟨0, _⟩ => Fin.ext rfl
    | ⟨1, _⟩ => Fin.ext rfl)

end Layout

/-- The row of x, cast to a vector, reads the row at each lane. -/
theorem pay3_apply (r : Vec Ideal S1x768 .f32) (k : Fin 768) : k0_pay3 (F := Ideal) r (ix1 k) = r (ix2 0 k) := by
  unfold k0_pay3
  exact shapeCast_1a_a_apply r _ k

/-! ## The row-times-matrix product [1, 768] × [768, 768] -/

theorem lhs_row_0 (i : S1x768.Idx) (q : dot_S1x768_S768x768_S1x768_1_0_0_1_n_n.contr.Idx) :
    (dot_S1x768_S768x768_S1x768_1_0_0_1_n_n.lhsIdx i q 0).val = (i 0).val := by
  unfold DotDims.lhsIdx
  rw [dif_neg (show ¬(0 : Fin S1x768.rank) ∈ dot_S1x768_S768x768_S1x768_1_0_0_1_n_n.lhsBatch by decide), dif_pos (show (0 : Fin S1x768.rank) ∈ dot_S1x768_S768x768_S1x768_1_0_0_1_n_n.lhsNonContracting by decide)]
  rfl
theorem lhs_row_1 (i : S1x768.Idx) (q : dot_S1x768_S768x768_S1x768_1_0_0_1_n_n.contr.Idx) :
    (dot_S1x768_S768x768_S1x768_1_0_0_1_n_n.lhsIdx i q 1).val = (q ⟨0, by decide⟩).val :=
  dot_S1x768_S768x768_S1x768_1_0_0_1_n_n.lhsIdx_val_of_single rfl i q
theorem rhs_row_0 (i : S1x768.Idx) (q : dot_S1x768_S768x768_S1x768_1_0_0_1_n_n.contr.Idx) :
    (dot_S1x768_S768x768_S1x768_1_0_0_1_n_n.rhsIdx i q 0).val = (q ⟨0, by decide⟩).val :=
  dot_S1x768_S768x768_S1x768_1_0_0_1_n_n.rhsIdx_val_of_single rfl i q
theorem rhs_row_1 (i : S1x768.Idx) (q : dot_S1x768_S768x768_S1x768_1_0_0_1_n_n.contr.Idx) :
    (dot_S1x768_S768x768_S1x768_1_0_0_1_n_n.rhsIdx i q 1).val = (i 1).val := by
  unfold DotDims.rhsIdx
  rw [dif_neg (show ¬(1 : Fin S768x768.rank) ∈ dot_S1x768_S768x768_S1x768_1_0_0_1_n_n.rhsBatch by decide), dif_pos (show (1 : Fin S768x768.rank) ∈ dot_S1x768_S768x768_S1x768_1_0_0_1_n_n.rhsNonContracting by decide)]
  rfl

/-- A row times a matrix, into the zero accumulator, at (u, o): the sum over the contracted coordinate k of
    row(u, k) · matrix(k, o). -/
theorem matmul_row_apply {φ₁ φ₂ : FTy} (l : FVec Ideal S1x768 φ₁) (m : FVec Ideal S768x768 φ₂) (u : Fin 1) (o : Fin 768) :
    matmul (F := Ideal) dot_S1x768_S768x768_S1x768_1_0_0_1_n_n none l m (constant (F := Ideal) S1x768 .f32 0x00000000#32) (ix2 u o)
      = ∑ k : Fin 768, l (ix2 u k) * m (ix2 k o) := by
  simp only [matmul]
  rw [Ideal.matmul_constant_zero_apply, ← Equiv.sum_comp (ValueIdx.contrEquiv1 dot_S1x768_S768x768_S1x768_1_0_0_1_n_n 768 rfl rfl).symm]
  refine Finset.sum_congr rfl fun k _ => ?_
  have hk := ValueIdx.contrEquiv1_symm_val dot_S1x768_S768x768_S1x768_1_0_0_1_n_n 768 rfl rfl k
  have el : dot_S1x768_S768x768_S1x768_1_0_0_1_n_n.lhsIdx (ix2 u o) ((ValueIdx.contrEquiv1 dot_S1x768_S768x768_S1x768_1_0_0_1_n_n 768 rfl rfl).symm k) = ix2 u k := funext fun a => Fin.ext (by
    match a with
    | ⟨0, _⟩ => exact lhs_row_0 _ _
    | ⟨1, _⟩ => exact (lhs_row_1 _ _).trans hk)
  have er : dot_S1x768_S768x768_S1x768_1_0_0_1_n_n.rhsIdx (ix2 u o) ((ValueIdx.contrEquiv1 dot_S1x768_S768x768_S1x768_1_0_0_1_n_n 768 rfl rfl).symm k) = ix2 k o := funext fun a => Fin.ext (by
    match a with
    | ⟨0, _⟩ => exact (rhs_row_0 _ _).trans hk
    | ⟨1, _⟩ => exact rhs_row_1 _ _)
  rw [el, er]

/-! ## The matrix product [768, 768] × [768, 768] -/

theorem lhs_sq_0 (i : S768x768.Idx) (q : dot_S768x768_S768x768_S768x768_1_0_0_1_n_n.contr.Idx) :
    (dot_S768x768_S768x768_S768x768_1_0_0_1_n_n.lhsIdx i q 0).val = (i 0).val := by
  unfold DotDims.lhsIdx
  rw [dif_neg (show ¬(0 : Fin S768x768.rank) ∈ dot_S768x768_S768x768_S768x768_1_0_0_1_n_n.lhsBatch by decide), dif_pos (show (0 : Fin S768x768.rank) ∈ dot_S768x768_S768x768_S768x768_1_0_0_1_n_n.lhsNonContracting by decide)]
  rfl
theorem lhs_sq_1 (i : S768x768.Idx) (q : dot_S768x768_S768x768_S768x768_1_0_0_1_n_n.contr.Idx) :
    (dot_S768x768_S768x768_S768x768_1_0_0_1_n_n.lhsIdx i q 1).val = (q ⟨0, by decide⟩).val :=
  dot_S768x768_S768x768_S768x768_1_0_0_1_n_n.lhsIdx_val_of_single rfl i q
theorem rhs_sq_0 (i : S768x768.Idx) (q : dot_S768x768_S768x768_S768x768_1_0_0_1_n_n.contr.Idx) :
    (dot_S768x768_S768x768_S768x768_1_0_0_1_n_n.rhsIdx i q 0).val = (q ⟨0, by decide⟩).val :=
  dot_S768x768_S768x768_S768x768_1_0_0_1_n_n.rhsIdx_val_of_single rfl i q
theorem rhs_sq_1 (i : S768x768.Idx) (q : dot_S768x768_S768x768_S768x768_1_0_0_1_n_n.contr.Idx) :
    (dot_S768x768_S768x768_S768x768_1_0_0_1_n_n.rhsIdx i q 1).val = (i 1).val := by
  unfold DotDims.rhsIdx
  rw [dif_neg (show ¬(1 : Fin S768x768.rank) ∈ dot_S768x768_S768x768_S768x768_1_0_0_1_n_n.rhsBatch by decide), dif_pos (show (1 : Fin S768x768.rank) ∈ dot_S768x768_S768x768_S768x768_1_0_0_1_n_n.rhsNonContracting by decide)]
  rfl

/-- A matrix times a matrix, into the zero accumulator, at (o, p): the sum over the contracted coordinate k of
    left(o, k) · right(k, p). -/
theorem matmul_sq_apply {φ₁ φ₂ : FTy} (l : FVec Ideal S768x768 φ₁) (m : FVec Ideal S768x768 φ₂) (o p : Fin 768) :
    matmul (F := Ideal) dot_S768x768_S768x768_S768x768_1_0_0_1_n_n none l m (constant (F := Ideal) S768x768 .f32 0x00000000#32) (ix2 o p)
      = ∑ k : Fin 768, l (ix2 o k) * m (ix2 k p) := by
  simp only [matmul]
  rw [Ideal.matmul_constant_zero_apply, ← Equiv.sum_comp (ValueIdx.contrEquiv1 dot_S768x768_S768x768_S768x768_1_0_0_1_n_n 768 rfl rfl).symm]
  refine Finset.sum_congr rfl fun k _ => ?_
  have hk := ValueIdx.contrEquiv1_symm_val dot_S768x768_S768x768_S768x768_1_0_0_1_n_n 768 rfl rfl k
  have el : dot_S768x768_S768x768_S768x768_1_0_0_1_n_n.lhsIdx (ix2 o p) ((ValueIdx.contrEquiv1 dot_S768x768_S768x768_S768x768_1_0_0_1_n_n 768 rfl rfl).symm k) = ix2 o k := funext fun a => Fin.ext (by
    match a with
    | ⟨0, _⟩ => exact lhs_sq_0 _ _
    | ⟨1, _⟩ => exact (lhs_sq_1 _ _).trans hk)
  have er : dot_S768x768_S768x768_S768x768_1_0_0_1_n_n.rhsIdx (ix2 o p) ((ValueIdx.contrEquiv1 dot_S768x768_S768x768_S768x768_1_0_0_1_n_n 768 rfl rfl).symm k) = ix2 k p := funext fun a => Fin.ext (by
    match a with
    | ⟨0, _⟩ => exact (rhs_sq_0 _ _).trans hk
    | ⟨1, _⟩ => exact rhs_sq_1 _ _)
  rw [el, er]

/-! ## The payloads -/

/-- The stored block is the computed matrix under a leading unit axis. -/
theorem pay1_apply (v : FVec Ideal S768x768 .f32) (o p : Fin 768) : k0_pay1 (F := Ideal) v (ix3 0 o p) = v (ix2 o p) := by
  unfold k0_pay1
  exact shapeCast_ab_1ab_apply v _ 0 o p

/-- The scratch payload: (exp a · w(o, k)) · w(o, k). -/
theorem pay2_apply (w : Vec Ideal S768x768 .f32) (a : Vec Ideal S1x1 .f32) (o k : Fin 768) :
    k0_pay2 (F := Ideal) w a (ix2 o k) = Ideal.exp (a (ix2 0 0)) * w (ix2 o k) * w (ix2 o k) := by
  unfold k0_pay2
  refine (congrFun (shapeCast_self _ _) _).trans ?_
  rw [mulf_apply, mulf_apply, broadcast_apply, extract_00]
  rfl

/-- The mean payload: Σₖ r(k) · w(o, k) + β(o). The row of x times the transposed weights, plus the bias row. -/
theorem pay4_apply (w : Vec Ideal S768x768 .f32) (β r : Vec Ideal S1x768 .f32) (o : Fin 768) :
    k0_pay4 (F := Ideal) w β r (ix3 0 0 o) = (∑ k : Fin 768, r (ix2 0 k) * w (ix2 o k)) + β (ix2 0 o) := by
  unfold k0_pay4
  refine (cast_a_11a _ _ 0 0 o).trans ?_
  refine congrArg₂ (· + ·) ?_ ?_
  · refine (shapeCast_1a_a_apply _ _ o).trans ?_
    refine (matmul_row_apply _ _ 0 o).trans ?_
    refine Finset.sum_congr rfl fun k _ => ?_
    refine congrArg₂ (· * ·) ?_ ?_
    · exact (shapeCast_a_1a_apply _ _ 0 k).trans (pay3_apply r k)
    · exact transpose_ix2_apply w _ k o
  · exact shapeCast_1a_a_apply β _ o

/-! ## The covariance payload's pieces -/

/-- The row of x broadcast over the rows of the weights, times the weights, narrowed (the narrowing is the identity
    on the extended reals): at (o, k), r(k) · w(o, k). -/
theorem lane_apply (w : Vec Ideal S768x768 .f32) (r : Vec Ideal S1x768 .f32) (h1 : S768.ShapeCasts S1x768)
    (h2 : S1x768.Broadcasts S768x768) (h3 : FTy.bits .bf16 < FTy.bits .f32) (o k : Fin 768) :
    (truncf .bf16 (mulf (broadcastTo S768x768 (shapeCast S1x768 (k0_pay3 (F := Ideal) r) h1) h2) w) h3 :
        FVec Ideal S768x768 .bf16) (ix2 o k) = r (ix2 0 k) * w (ix2 o k) := by
  show broadcastTo S768x768 (shapeCast S1x768 (k0_pay3 (F := Ideal) r) h1) h2 (ix2 o k) * w (ix2 o k) = _
  rw [broadcastTo_1b_ab_apply, shapeCast_a_1a_apply, pay3_apply]

/-- The two lane-number arrays agree at (o, p) exactly on the diagonal. -/
theorem diag_word (h0 : S768x768.Iotas .tc 32 [0]) (h1 : S768x768.Iotas .tc 32 [1]) (o p : Fin 768) :
    cmpi .eq (iota .tc S768x768 32 [0] h0) (iota .tc S768x768 32 [1] h1) (ix2 o p) = (1 : BitVec 1) ↔ o = p := by
  show IntOp.cmpi .eq (iota .tc S768x768 32 [0] h0 (ix2 o p)) (iota .tc S768x768 32 [1] h1 (ix2 o p)) = (1 : BitVec 1) ↔ _
  rw [iota_single_apply, iota_single_apply]
  show BitVec.ofBool (BitVec.ofNat 32 o.val == BitVec.ofNat 32 p.val) = (1 : BitVec 1) ↔ o = p
  rw [← Cert.Spec.word_eq_iff]
  by_cases h : BitVec.ofNat 32 o.val = BitVec.ofNat 32 p.val
  · simp [h]
  · have hb : (BitVec.ofNat 32 o.val == BitVec.ofNat 32 p.val) = false := beq_eq_false_iff_ne.2 h
    rw [hb]
    exact ⟨fun hh => absurd hh (by decide), fun hh => absurd hh h⟩

/-- Selecting by that comparison keeps the first array on the diagonal and the second off it. -/
theorem select_diag {α : Type} (h0 : S768x768.Iotas .tc 32 [0]) (h1 : S768x768.Iotas .tc 32 [1])
    (A B : S768x768.Idx → α) (o p : Fin 768) :
    select (cmpi .eq (iota .tc S768x768 32 [0] h0) (iota .tc S768x768 32 [1] h1)) A B (ix2 o p)
      = if o = p then A (ix2 o p) else B (ix2 o p) := by
  show (if cmpi .eq (iota .tc S768x768 32 [0] h0) (iota .tc S768x768 32 [1] h1) (ix2 o p) = (1 : BitVec 1) then _ else _) = _
  by_cases h : o = p
  · rw [if_pos h, if_pos ((diag_word h0 h1 o p).2 h)]
  · rw [if_neg h, if_neg (fun hh => h ((diag_word h0 h1 o p).1 hh))]

/-- The covariance payload: the cross term Σₖ (r(k) · w(o, k)) · (r(k) · w(p, k)), plus, on the diagonal only, the
    term Σₖ (r(k)² + r(k)²) · s(o, k) (the doubled squares of the row times the transposed scratch, laid along a
    column and broadcast over the columns). -/
theorem pay5_apply (w s : Vec Ideal S768x768 .f32) (r : Vec Ideal S1x768 .f32) (o p : Fin 768) :
    k0_pay5 (F := Ideal) w s r (ix2 o p)
      = (∑ k : Fin 768, (r (ix2 0 k) * w (ix2 o k)) * (r (ix2 0 k) * w (ix2 p k)))
        + (if o = p then ∑ k : Fin 768, (r (ix2 0 k) * r (ix2 0 k) + r (ix2 0 k) * r (ix2 0 k)) * s (ix2 o k) else 0) := by
  unfold k0_pay5
  refine congrArg₂ (· + ·) ?_ ?_
  · refine (matmul_sq_apply _ _ o p).trans ?_
    refine Finset.sum_congr rfl fun k _ => ?_
    refine congrArg₂ (· * ·) ?_ ?_
    · exact lane_apply w r _ _ _ o k
    · exact (transpose_ix2_apply _ _ k p).trans (lane_apply w r _ _ _ p k)
  · refine (select_diag _ _ _ _ o p).trans ?_
    by_cases h : o = p
    · rw [if_pos h, if_pos h]
      refine (bcast_a1_ab _ _ o p).trans ?_
      refine (congrFun (shapeCast_self _ _) _).trans ?_
      refine (cast_a_a1 _ _ o 0).trans ?_
      refine (shapeCast_1a_a_apply _ _ o).trans ?_
      refine (matmul_row_apply _ _ 0 o).trans ?_
      refine Finset.sum_congr rfl fun k _ => ?_
      refine congrArg₂ (· * ·) ?_ ?_
      · refine (shapeCast_a_1a_apply _ _ 0 k).trans ?_
        show k0_pay3 (F := Ideal) r (ix1 k) * k0_pay3 (F := Ideal) r (ix1 k)
            + k0_pay3 (F := Ideal) r (ix1 k) * k0_pay3 (F := Ideal) r (ix1 k) = _
        rw [pay3_apply]
      · exact transpose_ix2_apply s _ k o
    · rw [if_neg h, if_neg h]
      show Ideal.ofBits .f32 0x00000000#32 = 0
      exact Ideal.ofBits_zero_f32

end Cert.KernelPay

end
-- ==== Proof.KernelFinal.lean ====
/-
  The kernel's result arrays after the run, at the ideal values.

  Point t of the grid writes back block t of each output: row t of the mean array [64, 1, 768] and block t of the
  covariance array [64, 768, 768]. Read at an index, what it writes is the specification at batch number t
  (the payload lemmas, with the row of x the point loads being row t and the scratch holding the weight variance).
  The 64 blocks tile each array — index (b, ·, ·) lies in block b — so after the run the arrays hold the
  specification everywhere. The program then reshapes the mean from [64, 1, 768] to [64, 768], which moves
  (b, 0, o) to (b, o): the same row-major position.
-/
import proofs.«129302_j44358422233577_1_alg».proof.Proof.KernelBlocks
import proofs.«129302_j44358422233577_1_alg».proof.Proof.KernelPay
import proofs.«129302_j44358422233577_1_alg».proof.Proof.Spec
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KValue

open Cert.KernelIdeal Cert.KernelIdeal.Gen Idealize.ShloMosaic.ValueIdx

variable (m : (ℓ : Loc nD τ sig) → Buf (Elt Ideal) ℓ) (ρ : Dev nD → PrngReg)

/-- A grid point as a batch number. -/
def bat (t : Fin cfg0.N) : Fin 64 := ⟨t.val, lt_of_lt_of_eq t.isLt (show cfg0.N = 64 from N_0)⟩

/-- The row of x a point loads is row t of x. -/
theorem xrow_apply (t : Fin cfg0.N) (x0 : Vec Ideal S64x768 .f32) (k : Fin 768) :
    xrow (grid0.coords t) x0 (ix2 0 k) = x0 (ix2 (bat t) k) := by
  obtain ⟨i00, i01, i10, i11, i20, i21, i30, i31, i40, i41, i42, i50, i51, i52, r0, r1⟩ := idx_facts t
  unfold xrow
  show x0 _ = x0 _
  refine congrArg x0 (funext fun a => Fin.ext ?_)
  match a with
  | ⟨0, _⟩ => show k0_off1 (grid0.coords t) (0 : Fin 2) + 1 * (0 : Nat) = t.val; rw [r0]; omega
  | ⟨1, _⟩ => show k0_off1 (grid0.coords t) (1 : Fin 2) + 1 * k.val = k.val; rw [r1]; omega

/-- The specification over the arrays as the region finds them: the mean with a unit middle axis, the covariance. -/
abbrev G4 (c : Dev nD) : S64x1x768.Idx → EReal := Cert.Spec.mean3Arr (xArr m c) (wArr m c) (bArr m c)
abbrev G5 (c : Dev nD) : S64x768x768.Idx → EReal := Cert.Spec.varArr (xArr m c) (wArr m c) (aArr m c)

/-- WHAT POINT t WRITES BACK INTO THE MEAN: block t of the specification. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, mean_at]
  obtain ⟨i00, i01, i10, i11, i20, i21, i30, i31, i40, i41, i42, i50, i51, i52, r0, r1⟩ := idx_facts t
  funext j
  obtain ⟨u, u', o, rfl⟩ : ∃ (u u' : Fin 1) (o : Fin 768), j = ix3 u u' o := ⟨j 0, j 1, j 2, eq_ix3 j⟩
  obtain rfl : u = 0 := Subsingleton.elim _ _
  obtain rfl : u' = 0 := Subsingleton.elim _ _
  show meanRow (grid0.coords t) (xArr m c) (wArr m c) (bArr m c) (ix3 0 0 o)
    = G4 m c (((cfg0.win 4).blk t).view.emb (ix3 0 0 o))
  have he : ((cfg0.win 4).blk t).view.emb (ix3 (0 : Fin 1) (0 : Fin 1) o) = ix3 (bat t) (0 : Fin 1) o := by
    funext a; apply Fin.ext
    match a with
    | ⟨0, _⟩ => show win0_4.index t (0 : Fin 3) * 1 + 1 * (0 : Nat) = t.val; rw [i40]; omega
    | ⟨1, _⟩ => show win0_4.index t (1 : Fin 3) * 1 + 1 * (0 : Nat) = 0; rw [i41]
    | ⟨2, _⟩ => show win0_4.index t (2 : Fin 3) * 768 + 1 * o.val = o.val; rw [i42]; omega
  rw [he]
  refine (Cert.KernelPay.pay4_apply (wArr m c) (bArr m c) (xrow (grid0.coords t) (xArr m c)) o).trans ?_
  simp only [xrow_apply]
  rfl

/-- WHAT POINT t WRITES BACK INTO THE COVARIANCE: block t of the specification. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5, var_at]
  obtain ⟨i00, i01, i10, i11, i20, i21, i30, i31, i40, i41, i42, i50, i51, i52, r0, r1⟩ := idx_facts t
  funext j
  obtain ⟨u, o, p, rfl⟩ : ∃ (u : Fin 1) (o p : Fin 768), j = ix3 u o p := ⟨j 0, j 1, j 2, eq_ix3 j⟩
  obtain rfl : u = 0 := Subsingleton.elim _ _
  show varBlock (grid0.coords t) (xArr m c) (wArr m c) (wvarBlock (wArr m c) (aArr m c)) (ix3 0 o p)
    = G5 m c (((cfg0.win 5).blk t).view.emb (ix3 0 o p))
  have he : ((cfg0.win 5).blk t).view.emb (ix3 (0 : Fin 1) o p) = ix3 (bat t) o p := by
    funext a; apply Fin.ext
    match a with
    | ⟨0, _⟩ => show win0_5.index t (0 : Fin 3) * 1 + 1 * (0 : Nat) = t.val; rw [i50]; omega
    | ⟨1, _⟩ => show win0_5.index t (1 : Fin 3) * 768 + 1 * o.val = o.val; rw [i51]; omega
    | ⟨2, _⟩ => show win0_5.index t (2 : Fin 3) * 768 + 1 * p.val = p.val; rw [i52]; omega
  rw [he]
  refine (Cert.KernelPay.pay1_apply _ o p).trans ?_
  refine (Cert.KernelPay.pay5_apply (wArr m c) (wvarBlock (wArr m c) (aArr m c)) (xrow (grid0.coords t) (xArr m c)) o p).trans ?_
  simp only [xrow_apply, wvarBlock, Cert.KernelPay.pay2_apply]
  rfl

/-- An index of the mean array is in point t's block iff each coordinate is in the block's range. -/
theorem mem_blk4 (t : Fin cfg0.N) (i : S64x1x768.Idx) :
    i ∈ ((cfg0.win 4).blk t).view.set ↔ ∀ a : Fin 3, win0_4.index t a * S1x1x768.size a ≤ (i a).val ∧ (i a).val < win0_4.index t a * S1x1x768.size a + S1x1x768.size a := by
  show i ∈ ((View.whole main_call0_v0_0).slice (win0_4.rect t)).set ↔ _
  rw [View.set_slice_whole, Rect.mem_set_unit]
  exact Iff.rfl

/-- The same for the covariance array. -/
theorem mem_blk5 (t : Fin cfg0.N) (i : S64x768x768.Idx) :
    i ∈ ((cfg0.win 5).blk t).view.set ↔ ∀ a : Fin 3, win0_5.index t a * S1x768x768.size a ≤ (i a).val ∧ (i a).val < win0_5.index t a * S1x768x768.size a + S1x768x768.size a := by
  show i ∈ ((View.whole main_v0_1).slice (win0_5.rect t)).set ↔ _
  rw [View.set_slice_whole, Rect.mem_set_unit]
  exact Iff.rfl

/-- Index (b, ·, ·) of the mean array lies in the block of point b. -/
theorem cover4 (i : S64x1x768.Idx) :
    ∃ t : Fin cfg0.N, (cfg0.win 4).flush t = true ∧ i ∈ ((cfg0.win 4).blk t).view.set := by
  have h0 : (i 0).val < 64 := (i 0).isLt
  have h1 : (i 1).val < 1 := (i 1).isLt
  have h2 : (i 2).val < 768 := (i 2).isLt
  have hN : cfg0.N = 64 := N_0
  refine ⟨⟨(i 0).val, by omega⟩, flush0_4 _, ?_⟩
  rw [mem_blk4]
  obtain ⟨-, -, -, -, -, -, -, -, i40, i41, i42, -⟩ := idx_facts ⟨(i 0).val, by omega⟩
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    rw [i40]; dsimp only; omega
  | ⟨1, _⟩ =>
    show win0_4.index ⟨(i 0).val, _⟩ (1 : Fin 3) * 1 ≤ (i 1).val ∧ (i 1).val < win0_4.index ⟨(i 0).val, _⟩ (1 : Fin 3) * 1 + 1
    rw [i41]; omega
  | ⟨2, _⟩ =>
    show win0_4.index ⟨(i 0).val, _⟩ (2 : Fin 3) * 768 ≤ (i 2).val ∧ (i 2).val < win0_4.index ⟨(i 0).val, _⟩ (2 : Fin 3) * 768 + 768
    rw [i42]; omega

/-- Index (b, ·, ·) of the covariance array lies in the block of point b. -/
theorem cover5 (i : S64x768x768.Idx) :
    ∃ t : Fin cfg0.N, (cfg0.win 5).flush t = true ∧ i ∈ ((cfg0.win 5).blk t).view.set := by
  have h0 : (i 0).val < 64 := (i 0).isLt
  have h1 : (i 1).val < 768 := (i 1).isLt
  have h2 : (i 2).val < 768 := (i 2).isLt
  have hN : cfg0.N = 64 := N_0
  refine ⟨⟨(i 0).val, by omega⟩, flush0_5 _, ?_⟩
  rw [mem_blk5]
  obtain ⟨-, -, -, -, -, -, -, -, -, -, -, i50, i51, i52, -⟩ := idx_facts ⟨(i 0).val, by omega⟩
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [i50]; dsimp only; omega
  | ⟨1, _⟩ =>
    show win0_5.index ⟨(i 0).val, _⟩ (1 : Fin 3) * 768 ≤ (i 1).val ∧ (i 1).val < win0_5.index ⟨(i 0).val, _⟩ (1 : Fin 3) * 768 + 768
    rw [i51]; omega
  | ⟨2, _⟩ =>
    show win0_5.index ⟨(i 0).val, _⟩ (2 : Fin 3) * 768 ≤ (i 2).val ∧ (i 2).val < win0_5.index ⟨(i 0).val, _⟩ (2 : Fin 3) * 768 + 768
    rw [i52]; omega

/-- After the run the mean array [64, 1, 768] holds the specification, -/
theorem final4 (c : Dev nD) : (dats m 0 c).arrAt 4 cfg0.N = G4 m c :=
  (dats m 0 c).arrAt_eq_of_cover 4 (G4 m c) (fun t _ => flushed4_eq m c t) cover4

/-- and so does the covariance array. -/
theorem final5 (c : Dev nD) : (dats m 0 c).arrAt 5 cfg0.N = G5 m c :=
  (dats m 0 c).arrAt_eq_of_cover 5 (G5 m c) (fun t _ => flushed5_eq m c t) cover5

/-- The reshape [64, 1, 768] → [64, 768] of the mean reads (b, 0, o) at (b, o). -/
theorem reshape_mean (x : S64x768.Idx → EReal) (W : S768x768.Idx → EReal) (β : S1x768.Idx → EReal)
    (h : S64x1x768.ShapeCasts S64x768) :
    shapeCast S64x768 (Cert.Spec.mean3Arr x W β) h = Cert.Spec.meanArr x W β := by
  funext i
  obtain ⟨b, o, rfl⟩ : ∃ (b : Fin 64) (o : Fin 768), i = ix2 b o := ⟨i 0, i 1, eq_ix2 i⟩
  refine (shapeCast_apply _ h (ix2 b o) (ix3 b (0 : Fin 1) o) ?_).trans rfl
  rw [Shape.rowMajor_val_three, Shape.rowMajor_val_two]
  show (b.val * 1 + (0 : Nat)) * 768 + o.val = b.val * 768 + o.val
  omega

/-- The program's first result, the reshaped mean, after the lines that follow the region. -/
theorem tail_eq (c : Dev nD) :
    Pipeline.afterTail₀ cfgs (dats m) 0 (V0 m) [hostOps1] c main_v0_0
      = Cert.Spec.meanArr (xArr m c) (wArr m c) (bArr m c) := by
  unfold Pipeline.afterTail₀
  show StableHlo.after hostOps1 _ (Proc.devRef .tc main_v0_0) = _
  after_results
  have hw : Pipeline.withArrays (cfgs 0).spec c (V0 m c) (fun w => (dats m 0 c).arrAt w (cfgs 0).N)
      (Proc.devRef .tc main_call0_v0_0) = G4 m c :=
    (Pipeline.withArrays_arr spec0 launch0.win.arr_inj c _ _ 4).trans (final4 m c)
  show shapeCast S64x768 (Pipeline.withArrays (cfgs 0).spec c (V0 m c) (fun w => (dats m 0 c).arrAt w (cfgs 0).N)
      (Proc.devRef .tc main_call0_v0_0)) Facts₀.shapeCasts_S64x1x768_S64x768 = _
  rw [hw]
  exact reshape_mean _ _ _ _

/-- THE RUN, READ: every weakly fair execution of the idealized kernel program terminates with its first result at the
    mean and its second at the covariance of the argument arrays, which end unchanged. -/
theorem run : θ_run defs (onTc (τ := τ) (main (F := Ideal))) ⟨m, fun _ => 0, ρ⟩ fun r => ∀ c : Dev nD,
      r.2.mem ((c.tc : Thread nD τ).loc main_v0_0) = Cert.Spec.meanArr (m ((c.tc : Thread nD τ).loc main_arg0)) (m ((c.tc : Thread nD τ).loc main_arg1)) (m ((c.tc : Thread nD τ).loc main_arg3))
      ∧ r.2.mem ((c.tc : Thread nD τ).loc main_v0_1) = Cert.Spec.varArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v0_0 (Pipeline.mem_restRefs_of main_v0_0 rfl (by decide))).trans (tail_eq m c),
      ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KValue

end
-- ==== Proof.lean ====
/-
  The certificate: the kernel — one grid point per batch row, the weight variance computed once at the first point
  and kept in a scratch buffer, the covariance's diagonal term selected onto the diagonal — and the reference —
  whole-array products, the diagonal term multiplied by the identity matrix — compute the same mean
  μ(b, o) = Σₖ x(b, k) W(o, k) + β(o) and the same covariance
  v(b, o, p) = Σₖ (x(b, k) W(o, k)) (x(b, k) W(p, k)) + [o = p] Σₖ (x(b, k)² + x(b, k)²) (exp a · W(o, k)) W(o, k)
  over the extended reals. The three programs run (terminate, fault nowhere, leave their arguments unchanged); the
  idealized kernel is the kernel's own text read at the ideal values (no rewrite was applied); and the two idealized
  programs end with equal results, element by element: both are the specification (Proof/Spec.lean) of arguments
  that agree. No finiteness of the inputs is used: the only law between the two sides, t · 1 = t and t · 0 = 0,
  holds at the infinities too.
-/
import proofs.«129302_j44358422233577_1_alg».proof.Defs
import proofs.«129302_j44358422233577_1_alg».proof.Proof.Gen.Kernel
import proofs.«129302_j44358422233577_1_alg».proof.Proof.Gen.Kernel.Frame
import proofs.«129302_j44358422233577_1_alg».proof.Proof.Gen.KernelIdeal
import proofs.«129302_j44358422233577_1_alg».proof.Proof.Gen.KernelIdeal.Frame
import proofs.«129302_j44358422233577_1_alg».proof.Proof.Gen.ReferenceIdeal
import proofs.«129302_j44358422233577_1_alg».proof.Proof.Gen.ReferenceIdeal.Run
import proofs.«129302_j44358422233577_1_alg».proof.Proof.Gen.ReferenceIdeal.Read
import proofs.«129302_j44358422233577_1_alg».proof.Proof.Gen.Pre_finite_inputs
import proofs.«129302_j44358422233577_1_alg».proof.Proof.Spec
import proofs.«129302_j44358422233577_1_alg».proof.Proof.RefValue
import proofs.«129302_j44358422233577_1_alg».proof.Proof.KernelFinal
import Idealize.ShloMosaic.Adequacy
import Idealize.ShloMosaic.Init

noncomputable section

namespace Cert.Proof

open Idealize.ShloMosaic Idealize.SL.Sem

/-- The kernel program runs and keeps its arguments, at the word level. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end at the specification of the argument arrays: the kernel by its run read point by
    point, the reference by its operations read index by index; the arguments agree. -/
theorem algebraic : Cert.algebraic_KernelIdeal_ReferenceIdeal := by
  intro m ρ m' ρ' _ hagree
  refine ⟨fun c => Cert.Spec.meanArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.Spec.varArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KValue.run m ρ, ?_⟩
  refine (θ_run Cert.ReferenceIdeal.defs _ _).mono (fun _ h c => ?_) (Cert.ReferenceIdeal.Value.run (F := Ideal) m' ρ')
  obtain ⟨h7, h29, ha0, ha1, ha2, ha3⟩ := h c
  obtain ⟨e0, e1, e2, e3⟩ := hagree c
  refine ⟨?_, ?_, ha0, ha1, ha2, ha3⟩
  · refine h7.trans ((Cert.ReferenceIdeal.Read.val_main_v7_eq _ _ _).trans ((Cert.RefValue.ref_mean _ _ _).trans ?_))
    rw [e0, e1, e3]
  · refine h29.trans ((Cert.ReferenceIdeal.Read.val_main_v29_eq _ _ _).trans ((Cert.RefValue.ref_var _ _ _).trans ?_))
    rw [e0, e1, e2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
